-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S4096x3 : Shape := ⟨2, ![4096, 3]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel
  bcast_S_S4096x3 : S_.BroadcastsInDim S4096x3 (![] : Fin 0 → Fin S4096x3.rank)
  reducesTo_S4096x3_S_d0_1 : S4096x3.ReducesTo [0, 1] S_

variable [Facts]

def fn {F : FTy → Type} [FloatOps F] (main_arg0 : FVec F S8388608x3 .f32) (main_arg1 : FVec F S4096x3 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  main_v8
-- ==== Kernel.lean ====
abbrev S8388608x3 : Shape := ⟨2, ![8388608, 3]⟩
abbrev S4096x3 : Shape := ⟨2, ![4096, 3]⟩
abbrev S2x256x16 : Shape := ⟨3, ![2, 256, 16]⟩
abbrev S1x256x16 : Shape := ⟨3, ![1, 256, 16]⟩
abbrev S256x16 : Shape := ⟨2, ![256, 16]⟩
abbrev S4096x1 : Shape := ⟨2, ![4096, 1]⟩
abbrev S4096x256 : Shape := ⟨2, ![4096, 256]⟩
abbrev S4096x16 : Shape := ⟨2, ![4096, 16]⟩
abbrev S_ : Shape := ⟨0, ![]⟩
abbrev S4096 : Shape := ⟨1, ![4096]⟩

abbrev nBuf : Space → Nat
  | .hbm => 28
  | .vmem => 6
  | .smem => 0
  | _ => 0

abbrev bufTy : (tb : Table) → Fin (tcTables nBuf tb) → BufTy
  | .hbm, ⟨0, _⟩ => ⟨S8388608x3, .f32⟩
  | .hbm, ⟨1, _⟩ => ⟨S4096x3, .f32⟩
  | .hbm, ⟨2, _⟩ => ⟨S2x256x16, .f32⟩
  | .hbm, ⟨3, _⟩ => ⟨S_, .f32⟩
  | .hbm, ⟨4, _⟩ => ⟨S256x16, .f32⟩
  | .hbm, ⟨5, _⟩ => ⟨S4096, .f32⟩
  | .hbm, ⟨6, _⟩ => ⟨S1x256x16, .f32⟩
  | .hbm, ⟨7, _⟩ => ⟨S_, .f32⟩
  | .hbm, ⟨8, _⟩ => ⟨S256x16, .f32⟩
  | .hbm, ⟨9, _⟩ => ⟨S4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4096x3, .f32⟩
  | .local _ .vmem, ⟨1, _⟩ => ⟨S4096x3, .f32⟩
  | .local _ .vmem, ⟨2, _⟩ => ⟨S1x256x16, .f32⟩
  | .local _ .vmem, ⟨3, _⟩ => ⟨S1x256x16, .f32⟩
  | .local _ .vmem, ⟨4, _⟩ => ⟨S4096x3, .f32⟩
  | .local _ .vmem, ⟨5, _⟩ => ⟨S1x256x16, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨2, ![2, 1024], ![false, false]⟩

def cc0_transform_0 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4096x3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x256x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

class Facts₀ : Prop where
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  shapeCasts_S256x16_S1x256x16 : S256x16.ShapeCasts S1x256x16
  inb_S4096x3_S4096x3_0_0 : ∀ a, (![0, 0] : Fin 2 → Nat) a + S4096x3.size a ≤ S4096x3.size a
  h_S4096x3 : 0 < S4096x3.numel
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  iota_S4096x256_d1_w32 : S4096x256.Iotas .tc 32 [1]
  broadcasts_S4096x1_S4096x256 : S4096x1.Broadcasts S4096x256
  natLt_1_32 : 1 < 32
  bitsLt_bf16_f32 : FTy.bits .bf16 < FTy.bits .f32
  iota_S4096x16_d1_w32 : S4096x16.Iotas .tc 32 [1]
  broadcasts_S4096x1_S4096x16 : S4096x1.Broadcasts S4096x16
  reducesTo_S2x256x16_S256x16_d0 : S2x256x16.ReducesTo [0] S256x16
  h_S_ : 0 < S_.numel
  shapeCasts_S256x16_S4096 : S256x16.ShapeCasts S4096
  reducesTo_S1x256x16_S256x16_d0 : S1x256x16.ReducesTo [0] S256x16
  reducesTo_S4096_S_d0 : S4096.ReducesTo [0] S_
  bcast_S_S4096 : S_.BroadcastsInDim S4096 (![] : Fin 0 → Fin S4096.rank)
  dot_S4096x256_S4096x16_S256x16_0_0_1_1_n_n_wf : DotDims.WF S4096x256 S4096x16 S256x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S8388608x3.size a
  hwx0_0 : ∀ i : grid0.Coords, EltTy.bits .f32 = 32 ∨ (Rect.block (s := S8388608x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x16.size a ≤ S2x256x16.size a
  hwx0_1 : ∀ i : grid0.Coords, EltTy.bits .f32 = 32 ∨ (Rect.block (s := S2x256x16) S1x256x16.size (cc0_transform_1 i) (hinb0_1 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S4096x3.size a ≤ S4096x3.size a
  hwx1_0 : ∀ i : grid1.Coords, EltTy.bits .f32 = 32 ∨ (Rect.block (s := S4096x3) S4096x3.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1x256x16.size a ≤ S1x256x16.size a
  hwx1_1 : ∀ i : grid1.Coords, EltTy.bits .f32 = 32 ∨ (Rect.block (s := S1x256x16) S1x256x16.size (cc1_transform_1 i) (hinb1_1 i)).WholeWords (EltTy.packing .f32)

variable [Facts₀]

def dot_S4096x256_S4096x16_S256x16_0_0_1_1_n_n : DotDims S4096x256 S4096x16 S256x16 where
  lhsContracting := [0]
  rhsContracting := [0]
  lhsNonContracting := [1]
  rhsNonContracting := [1]
  lhsBatch := []
  rhsBatch := []
  wf := dot_S4096x256_S4096x16_S256x16_0_0_1_1_n_n_wf

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S4096x3.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x16.size cc1_transform_1 reads1_1 true false 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8388608x3 : Shape := ⟨2, ![8388608, 3]⟩
abbrev S4096x3 : Shape := ⟨2, ![4096, 3]⟩
abbrev S_ : Shape := ⟨0, ![]⟩
abbrev S8388608x1 : Shape := ⟨2, ![8388608, 1]⟩
abbrev S8388608 : Shape := ⟨1, ![8388608]⟩
abbrev S4096 : Shape := ⟨1, ![4096]⟩
abbrev S4096x1 : Shape := ⟨2, ![4096, 1]⟩

abbrev nBuf : Space → Nat
  | .hbm => 84
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S4096x3, .f32⟩
  | .hbm, ⟨2, _⟩ => ⟨S_, .f32⟩
  | .hbm, ⟨3, _⟩ => ⟨S8388608x3, .f32⟩
  | .hbm, ⟨4, _⟩ => ⟨S8388608x3, .f32⟩
  | .hbm, ⟨5, _⟩ => ⟨S8388608x3, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8388608x3, .i32⟩
  | .hbm, ⟨10, _⟩ => ⟨S8388608x3, .i32⟩
  | .hbm, ⟨11, _⟩ => ⟨S_, .i32⟩
  | .hbm, ⟨12, _⟩ => ⟨S8388608x3, .i32⟩
  | .hbm, ⟨13, _⟩ => ⟨S8388608x3, .i32⟩
  | .hbm, ⟨14, _⟩ => ⟨S8388608x1, .i32⟩
  | .hbm, ⟨15, _⟩ => ⟨S8388608, .i32⟩
  | .hbm, ⟨16, _⟩ => ⟨S_, .i32⟩
  | .hbm, ⟨17, _⟩ => ⟨S8388608, .i32⟩
  | .hbm, ⟨18, _⟩ => ⟨S8388608, .i32⟩
  | .hbm, ⟨19, _⟩ => ⟨S8388608x1, .i32⟩
  | .hbm, ⟨20, _⟩ => ⟨S8388608, .i32⟩
  | .hbm, ⟨21, _⟩ => ⟨S8388608, .i32⟩
  | .hbm, ⟨22, _⟩ => ⟨S_, .i32⟩
  | .hbm, ⟨23, _⟩ => ⟨S8388608, .i32⟩
  | .hbm, ⟨24, _⟩ => ⟨S8388608, .i32⟩
  | .hbm, ⟨25, _⟩ => ⟨S8388608x1, .i32⟩
  | .hbm, ⟨26, _⟩ => ⟨S8388608, .i32⟩
  | .hbm, ⟨27, _⟩ => ⟨S8388608, .i32⟩
  | .hbm, ⟨28, _⟩ => ⟨S_, .f32⟩
  | .hbm, ⟨29, _⟩ => ⟨S8388608, .f32⟩
  | .hbm, ⟨30, _⟩ => ⟨S_, .f32⟩
  | .hbm, ⟨31, _⟩ => ⟨S4096, .f32⟩
  | .hbm, ⟨32, _⟩ => ⟨S8388608x1, .i32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S4096x3, .f32⟩
  | .hbm, ⟨42, _⟩ => ⟨S4096x3, .f32⟩
  | .hbm, ⟨43, _⟩ => ⟨S4096x3, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S4096x3, .i32⟩
  | .hbm, ⟨48, _⟩ => ⟨S4096x3, .i32⟩
  | .hbm, ⟨49, _⟩ => ⟨S_, .i32⟩
  | .hbm, ⟨50, _⟩ => ⟨S4096x3, .i32⟩
  | .hbm, ⟨51, _⟩ => ⟨S4096x3, .i32⟩
  | .hbm, ⟨52, _⟩ => ⟨S4096x1, .i32⟩
  | .hbm, ⟨53, _⟩ => ⟨S4096, .i32⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S4096, .i32⟩
  | .hbm, ⟨65, _⟩ => ⟨S4096, .i32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096x1, .i32⟩
  | .hbm, ⟨71, _⟩ => ⟨S4096, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096, .f32⟩
  | .hbm, ⟨79, _⟩ => ⟨S4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_c_9 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_11 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_12 : Ref sig .tc := ⟨.hbm, 66, rfl⟩
abbrev main_v40 : Ref sig .tc := ⟨.hbm, 67, rfl⟩
abbrev main_cst_13 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_14 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_16 : Ref sig .tc := ⟨.hbm, 80, rfl⟩
abbrev main_v50 : Ref sig .tc := ⟨.hbm, 81, rfl⟩
abbrev main_cst_17 : Ref sig .tc := ⟨.hbm, 82, rfl⟩
abbrev main_v51 : Ref sig .tc := ⟨.hbm, 83, rfl⟩

abbrev nD : Nat := 1
abbrev τ : Topo := Topo.v7x

variable {F : FTy → Type} [FloatOps F]

class Facts₀ : Prop where
  bcast_S_S8388608x3 : S_.BroadcastsInDim S8388608x3 (![] : Fin 0 → Fin S8388608x3.rank)
  slices_S8388608x3_S8388608x1_0_0 : S8388608x3.Slices ![0, 0] S8388608x1
  shapeCasts_S8388608x1_S8388608 : S8388608x1.ShapeCasts S8388608
  bcast_S_S8388608 : S_.BroadcastsInDim S8388608 (![] : Fin 0 → Fin S8388608.rank)
  slices_S8388608x3_S8388608x1_0_1 : S8388608x3.Slices ![0, 1] S8388608x1
  slices_S8388608x3_S8388608x1_0_2 : S8388608x3.Slices ![0, 2] S8388608x1
  bcast_S_S4096 : S_.BroadcastsInDim S4096 (![] : Fin 0 → Fin S4096.rank)
  bcast_S8388608_S8388608x1_0 : S8388608.BroadcastsInDim S8388608x1 (![0] : Fin 1 → Fin S8388608x1.rank)
  reducesTo_S4096_S_d0 : S4096.ReducesTo [0] S_
  h_S_ : 0 < S_.numel
  bcast_S_S4096x3 : S_.BroadcastsInDim S4096x3 (![] : Fin 0 → Fin S4096x3.rank)
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  bcast_S4096_S4096x1_0 : S4096.BroadcastsInDim S4096x1 (![0] : Fin 1 → Fin S4096x1.rank)
  scatter_S4096_S8388608x1_S8388608_n_0_0_1_wf : ScatterDims.WF S4096 S8388608x1 S8388608 [] [0] [0] 1
  scatter_S4096_S4096x1_S4096_n_0_0_1_wf : ScatterDims.WF S4096 S4096x1 S4096 [] [0] [0] 1

variable [Facts₀]

def scatter_S4096_S8388608x1_S8388608_n_0_0_1 : ScatterDims S4096 S8388608x1 S8388608 where
  updateWindowDims := []
  insertedWindowDims := [0]
  scatterDimsToOperandDims := [0]
  indexVectorDim := 1
  wf := scatter_S4096_S8388608x1_S8388608_n_0_0_1_wf
def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf

class Facts : Prop extends Facts₀ where

variable [Facts]
-- ==== Proof.Spec.lean ====
/-
  The colour histogram, as mathematics. A point is three extended reals (its colour channels); a channel
  x is sent to the bin coordinate clamp(trunc(15 x), 0, 15), a 32-bit word in [0, 15]; a point falls in the flat bin
  (r * 16 + g) * 16 + b of 4096. The histogram counts the points of each bin; the loss normalises two histograms by
  their totals (plus a small constant) and averages the absolute differences.
-/
import Idealize.ShloMosaic.PureOps.Ideal
import Idealize.ShloMosaic.Lib.ValueIdx

noncomputable section

open scoped BigOperators

namespace Cert.Spec

open Idealize.ShloMosaic Idealize.ShloMosaic.ValueIdx

/-- The bin coordinate of one colour channel: 15 x truncated to an integer word, clamped into [0, 15]. -/
def chan (x : Ideal .f32) : BitVec 32 :=
  IntOp.minsi 15#32 (IntOp.maxsi 0#32 (FloatOps.fptosi 32 (FloatOps.mulf x (FloatOps.ofBits .f32 0x41700000#32))))

/-- The (red, green) pair's word r * 16 + g, in [0, 255]. -/
def rgWord (r g : Ideal .f32) : BitVec 32 := IntOp.addi (IntOp.muli (chan r) 16#32) (chan g)

/-- The flat bin word (r * 16 + g) * 16 + b, in [0, 4095]. -/
def flatWord (r g b : Ideal .f32) : BitVec 32 := IntOp.addi (IntOp.muli (rgWord r g) 16#32) (chan b)

/-- The histogram of n points: bin k holds the number of points whose flat bin word, read signed, is k. -/
def hist {n : Nat} (X : (⟨2, ![n, 3]⟩ : Shape).Idx → EReal) : (⟨1, ![4096]⟩ : Shape).Idx → EReal :=
  fun k => ∑ e : Fin n,
    if (flatWord (X (ix2 e (0 : Fin 3))) (X (ix2 e (1 : Fin 3))) (X (ix2 e (2 : Fin 3)))).toInt = ((k 0).val : Int)
    then (1 : EReal) else 0

/-- The count, among the rows of a block of T points, of those whose (red, green) word is rg and whose blue word is b. -/
def tileCount {T : Nat} (x : (⟨2, ![T, 3]⟩ : Shape).Idx → EReal) (rg : Fin 256) (b : Fin 16) : EReal :=
  ∑ p : Fin T,
    if rgWord (x (ix2 p (0 : Fin 3))) (x (ix2 p (1 : Fin 3))) = BitVec.ofNat 32 rg.val
        ∧ chan (x (ix2 p (2 : Fin 3))) = BitVec.ofNat 32 b.val
    then (1 : EReal) else 0

/-- Rows t * T, …, t * T + T - 1 of an array of n points, as a block of T points (zero past the array's end). -/
def rowsAt {n : Nat} (T : Nat) (X : (⟨2, ![n, 3]⟩ : Shape).Idx → EReal) (t : Nat) : (⟨2, ![T, 3]⟩ : Shape).Idx → EReal :=
  fun y => if h : t * T + (y 0).val < n then X (ix2 ⟨t * T + (y 0).val, h⟩ (y 1)) else 0

/-- A histogram divided by its total plus the constant the programs add. -/
def normalize (hr : (⟨1, ![4096]⟩ : Shape).ReducesTo [0] ⟨0, ![]⟩) (hS : 0 < (⟨0, ![]⟩ : Shape).numel)
    (hb : (⟨0, ![]⟩ : Shape).BroadcastsInDim ⟨1, ![4096]⟩ ![])
    (h : FVec Ideal ⟨1, ![4096]⟩ .f32) : FVec Ideal ⟨1, ![4096]⟩ .f32 :=
  Host.divf h (broadcastInDim ⟨1, ![4096]⟩ ![] hb
    (addf (Host.reduceAdd h (constant ⟨0, ![]⟩ .f32 0x00000000#32) hr hS) (constant ⟨0, ![]⟩ .f32 0x322BCC77#32)))

/-- The loss of two histograms: the mean over the 4096 bins of the absolute difference of the normalised histograms. -/
def loss (hr : (⟨1, ![4096]⟩ : Shape).ReducesTo [0] ⟨0, ![]⟩) (hS : 0 < (⟨0, ![]⟩ : Shape).numel)
    (hb : (⟨0, ![]⟩ : Shape).BroadcastsInDim ⟨1, ![4096]⟩ ![])
    (hs ht : FVec Ideal ⟨1, ![4096]⟩ .f32) : FVec Ideal ⟨0, ![]⟩ .f32 :=
  Host.divf
    (Host.reduceAdd (Host.absf (subf (normalize hr hS hb hs) (normalize hr hS hb ht)))
      (constant ⟨0, ![]⟩ .f32 0x00000000#32) hr hS)
    (constant ⟨0, ![]⟩ .f32 0x45800000#32)

end Cert.Spec

end
-- ==== Proof.Tile.lean ====
/-
  What the kernel body leaves in the output block at one grid point: the block as it was (or zero, at a core's first
  point) plus, at (0, rg, b), the number of the tile's points whose (red, green) word is rg and whose blue word is b —
  the product of the two one-hot matrices contracted over the tile's points.
-/
import proofs.«169797_j12704513261608_1_alg».proof.Proof.Gen.KernelIdeal.Frame
import proofs.«169797_j12704513261608_1_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

open scoped BigOperators

namespace Cert.KernelIdeal.Tile

open Idealize.ShloMosaic Idealize.ShloMosaic.TcCoe Idealize.SL.Sem Idealize.ShloMosaic.ValueIdx
open Cert.KernelIdeal Cert.KernelIdeal.Gen

section AnyF
variable {F : FTy → Type} [FloatOps F]

/-- The zero offsets of a rank-3 block, and of a rank-2 block. -/
theorem hz3 : (![0, 0, 0] : Fin 3 → Nat) = fun _ => 0 := funext fun a => by fin_cases a <;> rfl
theorem hz2 : (![0, 0] : Fin 2 → Nat) = fun _ => 0 := funext fun a => by fin_cases a <;> rfl

/-- Region 0, a core's first point: the body resets the block to zero, reads it back and stores the sum. -/
theorem out0_A (c : Dev nD) (i : grid0.Coords) (a2 : Memref sig .tc .vmem S4096x3 .f32) (h2 : a2.IsWhole)
    (a3 : Memref sig .tc .vmem S1x256x16 .f32) (h3 : a3.IsWhole) (hc : cond0_0 i) (x : Vec F S4096x3 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1x256x16) hz3, View.readCov_unit_zero (S := S1x256x16) _ hz3]
  simp only [View.readAt_eq_ld, h2.read_unread, View.ld_unit_zero (S := S1x256x16) hz3,
    View.ld_unit_zero (S := S4096x3) hz2]

/-- Region 0, any other point: the body stores the block it found plus the tile's counts. -/
theorem out0_B (c : Dev nD) (i : grid0.Coords) (a2 : Memref sig .tc .vmem S4096x3 .f32) (h2 : a2.IsWhole)
    (a3 : Memref sig .tc .vmem S1x256x16 .f32) (h3 : a3.IsWhole) (hc : ¬cond0_0 i) (x : Vec F S4096x3 .f32)
    (xo : Vec F S1x256x16 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  sl_unfold_words
  rw [View.canon_unit_zero hz3]
  simp only [View.readAt_eq_ld, h2.read_unread, h3.read_unread, View.ld_unit_zero (S := S1x256x16) hz3,
    View.ld_unit_zero (S := S4096x3) hz2]

/-- Region 1's one point: reset, read back, add. -/
theorem out1_A (c : Dev nD) (i : grid1.Coords) (a2 : Memref sig .tc .vmem S4096x3 .f32) (h2 : a2.IsWhole)
    (a3 : Memref sig .tc .vmem S1x256x16 .f32) (h3 : a3.IsWhole) (hc : cond1_0 i) (x : Vec F S4096x3 .f32) :
    out1_A_1 c i a2 h2 a3 h3 hc x = k1_pay2 x (k1_pay1 (F := F)) := by
  unfold out1_A_1
  rw [View.read_writes_eq_canon _ _ _ (cover1_A_1 c i a2 h2 a3 h3 hc x)]
  unfold kernelRun1_A
  dsimp only
  sl_unfold_words
  rw [View.canon_cons_unit_zero (S := S1x256x16) hz3, View.readCov_unit_zero (S := S1x256x16) _ hz3]
  simp only [View.readAt_eq_ld, h2.read_unread, View.ld_unit_zero (S := S1x256x16) hz3,
    View.ld_unit_zero (S := S4096x3) hz2]

end AnyF

/-! ## The stored block at an index, over the extended reals -/

/-- A channel column of a block of points: the slice at column c, read at row p, is the block at (p, c). -/
theorem slice_col {α : Type} (v : S4096x3.Idx → α) (off : Fin 2 → Nat) (c : Fin 3) (h0 : off 0 = 0) (h1 : off 1 = c.val)
    (h : S4096x3.Slices off S4096x1) (p : Fin 4096) :
    extractStridedSlice S4096x1 off v h (ix2 p (0 : Fin 1)) = v (ix2 p c) :=
  extractStridedSlice_apply off v h (ix2 p (0 : Fin 1)) (ix2 p c) fun a => by
    match a with
    | ⟨0, _⟩ => show p.val = off 0 + p.val; omega
    | ⟨1, _⟩ => show c.val = off 1 + 0; omega

/-- A column of words spread over n columns reads, at (p, k), the column's word at row p. -/
theorem bcast_col {α : Type} {n : Nat} (w : S4096x1.Idx → α) (h : S4096x1.Broadcasts ⟨2, ![4096, n]⟩) (p : Fin 4096) (k : Fin n) :
    broadcastTo ⟨2, ![4096, n]⟩ w h (ix2 p k) = w (ix2 p (0 : Fin 1)) :=
  broadcastTo_apply w h (ix2 p k) (ix2 p (0 : Fin 1)) fun a => by
    match a with
    | ⟨0, _⟩ => rfl
    | ⟨1, _⟩ => rfl

/-- The column counter at (p, k) is the word k. -/
theorem iota_col {n : Nat} (h : (⟨2, ![4096, n]⟩ : Shape).Iotas .tc 32 [1]) (p : Fin 4096) (k : Fin n) :
    iota .tc ⟨2, ![4096, n]⟩ 32 [1] h (ix2 p k) = BitVec.ofNat 32 k.val :=
  iota_single_apply .tc ⟨2, ![4096, n]⟩ 32 1 h (ix2 p k)

/-- The indicator of equality of two words, widened to 32 bits and converted, is 1 or 0. -/
theorem indicator_word (a b : BitVec 32) :
    FloatOps.sitofp (F := Ideal) .f32 ((IntOp.cmpi .eq a b).setWidth 32) = if a = b then 1 else 0 := by
  show (((((IntOp.cmpi .eq a b).setWidth 32).toInt : ℤ) : ℝ) : EReal) = _
  by_cases h : a = b
  · subst h
    simp [IntOp.cmpi]
  · have : (a == b) = false := by simpa using h
    simp [IntOp.cmpi, this, h]

/-- A product of two indicators is the indicator of the conjunction. -/
theorem indicator_mul (A B : Prop) [Decidable A] [Decidable B] :
    (if A then (1 : EReal) else 0) * (if B then (1 : EReal) else 0) = if A ∧ B then 1 else 0 := by
  by_cases hA : A <;> by_cases hB : B <;> simp [hA, hB]

/-- The tile's product at (rg, b): both operands are contracted over their row axis, the tile's points. -/
theorem counts_apply (A : FVec Ideal S4096x256 .bf16) (B : FVec Ideal S4096x16 .bf16) (rg : Fin 256) (b : Fin 16) :
    matmul dot_S4096x256_S4096x16_S256x16_0_0_1_1_n_n none A B (constant (F := Ideal) S256x16 .f32 0x00000000#32) (ix2 rg b)
      = ∑ p : Fin 4096, A (ix2 p rg) * B (ix2 p b) := by
  show FloatOps.matmul dot_S4096x256_S4096x16_S256x16_0_0_1_1_n_n none A B _ (ix2 rg b) = _
  rw [Ideal.matmul_constant_zero_apply,
    ← Equiv.sum_comp (contrEquiv1 dot_S4096x256_S4096x16_S256x16_0_0_1_1_n_n 4096 rfl rfl).symm]
  refine Finset.sum_congr rfl fun p _ => ?_
  have c := contrEquiv1_symm_val dot_S4096x256_S4096x16_S256x16_0_0_1_1_n_n 4096 rfl rfl p
  have l : dot_S4096x256_S4096x16_S256x16_0_0_1_1_n_n.lhsIdx (ix2 rg b)
      ((contrEquiv1 dot_S4096x256_S4096x16_S256x16_0_0_1_1_n_n 4096 rfl rfl).symm p) = ix2 p rg := by
    funext ax; apply Fin.ext
    match ax with
    | ⟨0, _⟩ => simp [DotDims.lhsIdx, dot_S4096x256_S4096x16_S256x16_0_0_1_1_n_n]; exact c
    | ⟨1, _⟩ => simp [DotDims.lhsIdx, dot_S4096x256_S4096x16_S256x16_0_0_1_1_n_n]; rfl
  have r : dot_S4096x256_S4096x16_S256x16_0_0_1_1_n_n.rhsIdx (ix2 rg b)
      ((contrEquiv1 dot_S4096x256_S4096x16_S256x16_0_0_1_1_n_n 4096 rfl rfl).symm p) = ix2 p b := by
    funext ax; apply Fin.ext
    match ax with
    | ⟨0, _⟩ => simp [DotDims.rhsIdx, dot_S4096x256_S4096x16_S256x16_0_0_1_1_n_n]; exact c
    | ⟨1, _⟩ => simp [DotDims.rhsIdx, dot_S4096x256_S4096x16_S256x16_0_0_1_1_n_n]; rfl
  rw [l, r]

/-- A one-hot row: the indicator, at (p, k), that the word of row p in a column of words is the word k. -/
theorem onehot_apply {n : Nat} (w : IVec S4096x1 32) (hb : S4096x1.Broadcasts ⟨2, ![4096, n]⟩)
    (hi : (⟨2, ![4096, n]⟩ : Shape).Iotas .tc 32 [1]) (h1 : 1 < 32) (hbf : FTy.bits .bf16 < FTy.bits .f32)
    (p : Fin 4096) (k : Fin n) :
    (truncf .bf16 (sitofp (F := Ideal) .f32
        (extui 32 (cmpi .eq (broadcastTo ⟨2, ![4096, n]⟩ w hb) (iota .tc ⟨2, ![4096, n]⟩ 32 [1] hi)) h1)) hbf) (ix2 p k)
      = if w (ix2 p (0 : Fin 1)) = BitVec.ofNat 32 k.val then 1 else 0 := by
  show FloatOps.sitofp (F := Ideal) .f32
      ((IntOp.cmpi .eq (broadcastTo ⟨2, ![4096, n]⟩ w hb (ix2 p k)) (iota .tc ⟨2, ![4096, n]⟩ 32 [1] hi (ix2 p k))).setWidth 32) = _
  rw [bcast_col, iota_col, indicator_word]

/-- The (red, green) column of a block of bin coordinates: 16 times the red coordinate plus the green one. -/
theorem rg_col (v : IVec S4096x3 32) (h0 : S4096x3.Slices ![0, 0] S4096x1) (h1 : S4096x3.Slices ![0, 1] S4096x1) (p : Fin 4096) :
    (addi (muli (extractStridedSlice S4096x1 ![0, 0] v h0) (broadcast S4096x1 16#32))
        (extractStridedSlice S4096x1 ![0, 1] v h1)) (ix2 p (0 : Fin 1))
      = IntOp.addi (IntOp.muli (v (ix2 p (0 : Fin 3))) 16#32) (v (ix2 p (1 : Fin 3))) := by
  show IntOp.addi (IntOp.muli (extractStridedSlice S4096x1 ![0, 0] v h0 (ix2 p (0 : Fin 1))) 16#32)
      (extractStridedSlice S4096x1 ![0, 1] v h1 (ix2 p (0 : Fin 1))) = _
  rw [slice_col v ![0, 0] 0 rfl rfl h0 p, slice_col v ![0, 1] 1 rfl rfl h1 p]

/-- The blue column. -/
theorem b_col (v : IVec S4096x3 32) (h2 : S4096x3.Slices ![0, 2] S4096x1) (p : Fin 4096) :
    extractStridedSlice S4096x1 ![0, 2] v h2 (ix2 p (0 : Fin 1)) = v (ix2 p (2 : Fin 3)) :=
  slice_col v ![0, 2] 2 rfl rfl h2 p

/-- The reset block is zero. -/
theorem pay1_apply0 (y : S1x256x16.Idx) : k0_pay1 (F := Ideal) y = 0 := by
  unfold k0_pay1
  refine (shapeCast_addUnit_apply ![256, 16] _ _ y).trans ?_
  exact Ideal.ofBits_zero_f32

theorem pay1_apply1 (y : S1x256x16.Idx) : k1_pay1 (F := Ideal) y = 0 := by
  unfold k1_pay1
  refine (shapeCast_addUnit_apply ![256, 16] _ _ y).trans ?_
  exact Ideal.ofBits_zero_f32

/-- The stored block at (0, rg, b): what was there plus the tile's count. The block's leading unit axis is dropped and
    put back around a sum of two [256, 16] matrices; the product of the two one-hot matrices, contracted over the
    tile's points, has at (rg, b) one term per point, the product of two indicators, which is the indicator that the
    point's (red, green) word is rg and its blue word is b. -/
theorem pay2_apply0 (x : Vec Ideal S4096x3 .f32) (xo : Vec Ideal S1x256x16 .f32) (rg : Fin 256) (b : Fin 16) :
    k0_pay2 x xo (ix3 (0 : Fin 1) rg b) = xo (ix3 (0 : Fin 1) rg b) + Cert.Spec.tileCount x rg b := by
  unfold k0_pay2
  refine (shapeCast_addUnit_apply ![256, 16] _ _ (ix3 (0 : Fin 1) rg b)).trans ?_
  have e : (fun a : Fin 2 => (ix3 (0 : Fin 1) rg b) a.succ) = ix2 rg b := by
    funext a; match a with | ⟨0, _⟩ => rfl | ⟨1, _⟩ => rfl
  rw [e]
  refine (addf_apply _ _ (ix2 rg b)).trans ?_
  refine congrArg₂ (· + ·) ?_ ?_
  · refine (shapeCast_dropUnit_apply ![256, 16] xo _ (ix2 rg b)).trans ?_
    exact congrArg xo (by funext a; match a with | ⟨0, _⟩ => rfl | ⟨1, _⟩ => rfl | ⟨2, _⟩ => rfl)
  · refine (counts_apply _ _ rg b).trans ?_
    unfold Cert.Spec.tileCount
    refine Finset.sum_congr rfl fun p _ => ?_
    refine (congrArg₂ (· * ·) (onehot_apply _ _ _ _ _ p rg) (onehot_apply _ _ _ _ _ p b)).trans ?_
    rw [indicator_mul, rg_col, b_col]
    rfl

theorem pay2_apply1 (x : Vec Ideal S4096x3 .f32) (xo : Vec Ideal S1x256x16 .f32) (rg : Fin 256) (b : Fin 16) :
    k1_pay2 x xo (ix3 (0 : Fin 1) rg b) = xo (ix3 (0 : Fin 1) rg b) + Cert.Spec.tileCount x rg b := by
  unfold k1_pay2
  refine (shapeCast_addUnit_apply ![256, 16] _ _ (ix3 (0 : Fin 1) rg b)).trans ?_
  have e : (fun a : Fin 2 => (ix3 (0 : Fin 1) rg b) a.succ) = ix2 rg b := by
    funext a; match a with | ⟨0, _⟩ => rfl | ⟨1, _⟩ => rfl
  rw [e]
  refine (addf_apply _ _ (ix2 rg b)).trans ?_
  refine congrArg₂ (· + ·) ?_ ?_
  · refine (shapeCast_dropUnit_apply ![256, 16] xo _ (ix2 rg b)).trans ?_
    exact congrArg xo (by funext a; match a with | ⟨0, _⟩ => rfl | ⟨1, _⟩ => rfl | ⟨2, _⟩ => rfl)
  · refine (counts_apply _ _ rg b).trans ?_
    unfold Cert.Spec.tileCount
    refine Finset.sum_congr rfl fun p _ => ?_
    refine (congrArg₂ (· * ·) (onehot_apply _ _ _ _ _ p rg) (onehot_apply _ _ _ _ _ p b)).trans ?_
    rw [indicator_mul, rg_col, b_col]
    rfl

end Cert.KernelIdeal.Tile

end
-- ==== Proof.Acc.lean ====
/-
  The two pallas_calls' result arrays, as counts. In the first call core i walks 1024 tiles of 4096 points: its
  output block is reset at the core's first tile and each tile adds its counts, so after tile j of core i the block holds
  the counts of tiles i * 1024, …, i * 1024 + j; the block is written back after the core's last tile, to row i of the
  result. The second call has one tile, the whole palette.
-/
import proofs.«169797_j12704513261608_1_alg».proof.Proof.Gen.KernelIdeal.Frame
import proofs.«169797_j12704513261608_1_alg».proof.Proof.Tile
import proofs.«169797_j12704513261608_1_alg».proof.Proof.Spec
import Idealize.ShloMosaic.Lib.Pipeline.Value
import Idealize.ShloMosaic.Lib.ValueIdx

set_option maxRecDepth 16384

noncomputable section

open scoped BigOperators

namespace Cert.KernelIdeal.Acc

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The first call -/

/-- The input window's block index at point t is (t, 0): core i's tile j is tile i * 1024 + j of the array. -/
theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- The output window's block index at point t is (t / 1024, 0, 0): the core's row of the result. -/
theorem index0_1 : ∀ t : Fin cfg0.N, win0_1.index t (0 : Fin 3) = t.val / 1024 ∧ win0_1.index t (1 : Fin 3) = 0 ∧ win0_1.index t (2 : Fin 3) = 0 :=
  (by decide +kernel : ∀ t : Fin grid0.N, win0_1.index t (0 : Fin 3) = t.val / 1024 ∧ win0_1.index t (1 : Fin 3) = 0 ∧ win0_1.index t (2 : Fin 3) = 0)

/-- The source array as the region finds it, and the input block at a point, at their literal types. -/
abbrev src (c : Dev nD) : Vec Ideal S8388608x3 .f32 := V c main_arg0
abbrev xblk (c : Dev nD) (t : Fin cfg0.N) : Vec Ideal S4096x3 .f32 := iblk0 V c 0 t

/-- The input block at point t is rows t * 4096, … of the source array. -/
theorem xblk_eq (c : Dev nD) (t : Fin cfg0.N) : xblk V c t = Cert.Spec.rowsAt 4096 (src V c) t.val := by
  have hN : t.val < 2048 := lt_of_lt_of_eq t.isLt (show cfg0.N = 2048 from N_0)
  funext j
  have hj : (j 0).val < 4096 := (j 0).isLt
  have hlt : t.val * 4096 + (j 0).val < 8388608 := by omega
  unfold Cert.Spec.rowsAt
  rw [dif_pos hlt]
  unfold xblk iblk0
  rw [View.read_apply]
  show V c main_arg0 _ = V c main_arg0 _
  congr 1
  funext a
  apply Fin.ext
  match a with
  | ⟨0, _⟩ =>
    show win0_0.index t 0 * 4096 + 1 * (j 0).val = t.val * 4096 + (j 0).val
    rw [(index0_0 t).1]; omega
  | ⟨1, _⟩ =>
    show win0_0.index t 1 * 3 + 1 * (j 1).val = (j 1).val
    rw [(index0_0 t).2]; omega

/-- After point n = i * 1024 + j the output block holds, at (0, rg, b), the counts of tiles i * 1024, …, i * 1024 + j. -/
theorem outsAt_eq (c : Dev nD) : ∀ (n : ℕ) (h : n < cfg0.N) (rg : Fin 256) (b : Fin 16),
    outsAt0 V c n h (ix3 (0 : Fin 1) rg b)
      = ∑ j ∈ Finset.range (n % 1024 + 1),
          Cert.Spec.tileCount (Cert.Spec.rowsAt 4096 (src V c) (n / 1024 * 1024 + j)) rg b
  | 0, h, rg, b => by
    rw [outsAt0_A V c ⟨0, h⟩ rfl]
    refine (congrFun (Tile.out0_A (F := Ideal) c (grid0.coords ⟨0, h⟩) (ms0_0 ⟨0, h⟩) (hs0_0 ⟨0, h⟩) (ms0_1 ⟨0, h⟩) (hs0_1 ⟨0, h⟩)
      ((hcond0_0 ⟨0, h⟩).mpr rfl) (xblk V c ⟨0, h⟩)) (ix3 (0 : Fin 1) rg b)).trans ?_
    rw [Tile.pay2_apply0, Tile.pay1_apply0, zero_add, xblk_eq]
    simp
  | n + 1, h, rg, b => by
    by_cases h0 : (n + 1) % 1024 = 0
    · rw [outsAt0_A V c ⟨n + 1, h⟩ h0]
      refine (congrFun (Tile.out0_A (F := Ideal) c (grid0.coords ⟨n + 1, h⟩) (ms0_0 ⟨n + 1, h⟩) (hs0_0 ⟨n + 1, h⟩) (ms0_1 ⟨n + 1, h⟩) (hs0_1 ⟨n + 1, h⟩)
        ((hcond0_0 ⟨n + 1, h⟩).mpr h0) (xblk V c ⟨n + 1, h⟩)) (ix3 (0 : Fin 1) rg b)).trans ?_
      rw [Tile.pay2_apply0, Tile.pay1_apply0, zero_add, xblk_eq, h0, Finset.sum_range_one]
      have e : (n + 1) / 1024 * 1024 + 0 = n + 1 := by omega
      rw [e]
    · rw [outsAt0_B V c ⟨n + 1, h⟩ h0]
      refine (congrFun (Tile.out0_B (F := Ideal) c (grid0.coords ⟨n + 1, h⟩) (ms0_0 ⟨n + 1, h⟩) (hs0_0 ⟨n + 1, h⟩) (ms0_1 ⟨n + 1, h⟩) (hs0_1 ⟨n + 1, h⟩)
        (fun hh => h0 ((hcond0_0 ⟨n + 1, h⟩).mp hh)) (xblk V c ⟨n + 1, h⟩) (outsAt0 V c n (Nat.lt_of_succ_lt h))) (ix3 (0 : Fin 1) rg b)).trans ?_
      rw [Tile.pay2_apply0, outsAt_eq c n (Nat.lt_of_succ_lt h) rg b, xblk_eq]
      have e1 : (n + 1) % 1024 = n % 1024 + 1 := by omega
      have e2 : (n + 1) / 1024 = n / 1024 := by omega
      have e3 : n + 1 = n / 1024 * 1024 + (n % 1024 + 1) := by omega
      rw [e1, e2, Finset.sum_range_succ _ (n % 1024 + 1)]
      congr 3

/-- The first call's result array: row i holds the counts of core i's 1024 tiles. -/
def G0 (c : Dev nD) : Vec Ideal S2x256x16 .f32 := fun y =>
  ∑ j ∈ Finset.range 1024, Cert.Spec.tileCount (Cert.Spec.rowsAt 4096 (src V c) ((y 0).val * 1024 + j)) (y 1) (y 2)

theorem G0_apply (c : Dev nD) (i : Fin 2) (rg : Fin 256) (b : Fin 16) :
    G0 V c (ix3 i rg b)
      = ∑ j ∈ Finset.range 1024, Cert.Spec.tileCount (Cert.Spec.rowsAt 4096 (src V c) (i.val * 1024 + j)) rg b := rfl

/-- What the write-back after a core's last tile writes is that core's row of G0. -/
theorem flushed0_eq (c : Dev nD) (t : Fin cfg0.N) (hf : (cfg0.win 1).flush t = true) :
    (dat0 V c).flushed 1 t = ((cfg0.win 1).blk t).view.read (Elt Ideal) (G0 V c) := by
  have hN : t.val < 2048 := lt_of_lt_of_eq t.isLt (show cfg0.N = 2048 from N_0)
  have h23 : t.val % 1024 = 1023 := (flush0_1 t).mp hf
  show (cfg0.win 1).cut (grid0.coords t) ((dat0 V c).after 1 t) = _
  rw [after0_1]
  funext y
  rw [View.read_apply]
  have hy0 : (y 0).val < 1 := (y 0).isLt
  have hy1 : (y 1).val < 256 := (y 1).isLt
  have hy2 : (y 2).val < 16 := (y 2).isLt
  have e : win0_1.xinj (grid0.coords t) y
      = ix3 (0 : Fin 1) (⟨(y 1).val, hy1⟩ : Fin 256) (⟨(y 2).val, hy2⟩ : Fin 16) := by
    funext a
    apply Fin.ext
    match a with
    | ⟨0, _⟩ => show (y 0).val = 0; omega
    | ⟨1, _⟩ => rfl
    | ⟨2, _⟩ => rfl
  refine (congrArg (outsAt0 V c t.val t.isLt) e).trans ?_
  rw [outsAt_eq V c t.val t.isLt, h23]
  unfold G0
  have e0 : ((((cfg0.win 1).blk t).view.emb y) 0).val = t.val / 1024 := by
    show win0_1.index t 0 * 1 + 1 * (y 0).val = _
    rw [(index0_1 t).1]; omega
  have e1 : ((((cfg0.win 1).blk t).view.emb y) 1) = (⟨(y 1).val, hy1⟩ : Fin 256) := by
    apply Fin.ext
    show win0_1.index t 1 * 256 + 1 * (y 1).val = (y 1).val
    rw [(index0_1 t).2.1]; omega
  have e2 : ((((cfg0.win 1).blk t).view.emb y) 2) = (⟨(y 2).val, hy2⟩ : Fin 16) := by
    apply Fin.ext
    show win0_1.index t 2 * 16 + 1 * (y 2).val = (y 2).val
    rw [(index0_1 t).2.2]; omega
  rw [e0, e1, e2]
  rfl

/-- So the first call's result array ends at G0. -/
theorem arr0_eq (c : Dev nD) : (dat0 V c).arrAt 1 cfg0.N = G0 V c :=
  (dat0 V c).arrAt_eq_of_cover 1 (G0 V c) (flushed0_eq V c) fun i => by
    have hi0 : (i 0).val < 2 := (i 0).isLt
    have hi1 : (i 1).val < 256 := (i 1).isLt
    have hi2 : (i 2).val < 16 := (i 2).isLt
    have hN : cfg0.N = 2048 := N_0
    have hlt : (i 0).val * 1024 + 1023 < cfg0.N := by rw [hN]; omega
    refine ⟨⟨(i 0).val * 1024 + 1023, hlt⟩, (flush0_1 _).mpr (by show ((i 0).val * 1024 + 1023) % 1024 = 1023; omega), ?_⟩
    generalize ht : (⟨(i 0).val * 1024 + 1023, hlt⟩ : Fin cfg0.N) = t
    have htv : t.val = (i 0).val * 1024 + 1023 := by rw [← ht]
    show i ∈ ((View.whole main_v0).slice (win0_1.rect t)).set
    rw [View.set_slice_whole, Rect.mem_set_unit]
    intro a
    match a with
    | ⟨0, _⟩ =>
      show win0_1.index t 0 * 1 ≤ (i 0 : Nat) ∧ (i 0 : Nat) < win0_1.index t 0 * 1 + 1
      rw [(index0_1 t).1, htv]
      omega
    | ⟨1, _⟩ =>
      show win0_1.index t 1 * 256 ≤ (i 1 : Nat) ∧ (i 1 : Nat) < win0_1.index t 1 * 256 + 256
      rw [(index0_1 t).2.1]; omega
    | ⟨2, _⟩ =>
      show win0_1.index t 2 * 16 ≤ (i 2 : Nat) ∧ (i 2 : Nat) < win0_1.index t 2 * 16 + 16
      rw [(index0_1 t).2.2]; omega

/-! ## The second call -/

/-- Both windows' block index at the call's one point is the origin. -/
theorem index1_0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)

theorem index1_1 : ∀ t : Fin cfg1.N, win1_1.index t (0 : Fin 3) = 0 ∧ win1_1.index t (1 : Fin 3) = 0 ∧ win1_1.index t (2 : Fin 3) = 0 :=
  (by decide +kernel : ∀ t : Fin grid1.N, win1_1.index t (0 : Fin 3) = 0 ∧ win1_1.index t (1 : Fin 3) = 0 ∧ win1_1.index t (2 : Fin 3) = 0)

/-- The palette as the region finds it, and the input block at the point, at their literal types. -/
abbrev tgt (c : Dev nD) : Vec Ideal S4096x3 .f32 := V c main_arg1
abbrev yblk (c : Dev nD) (t : Fin cfg1.N) : Vec Ideal S4096x3 .f32 := iblk1 V c 0 t

/-- The input block is the whole palette. -/
theorem yblk_eq (c : Dev nD) (t : Fin cfg1.N) : yblk V c t = tgt V c := by
  funext j
  unfold yblk iblk1
  rw [View.read_apply]
  show V c main_arg1 _ = V c main_arg1 j
  congr 1
  funext a
  apply Fin.ext
  match a with
  | ⟨0, _⟩ =>
    show win1_0.index t 0 * 4096 + 1 * (j 0).val = (j 0).val
    rw [(index1_0 t).1]; omega
  | ⟨1, _⟩ =>
    show win1_0.index t 1 * 3 + 1 * (j 1).val = (j 1).val
    rw [(index1_0 t).2]; omega

/-- After the point the output block holds, at (0, rg, b), the palette's counts. -/
theorem outsAt1_eq (c : Dev nD) (t : Fin cfg1.N) (rg : Fin 256) (b : Fin 16) :
    outsAt1 V c t (ix3 (0 : Fin 1) rg b) = Cert.Spec.tileCount (tgt V c) rg b := by
  unfold outsAt1
  refine (congrFun (Tile.out1_A (F := Ideal) c (grid1.coords t) (ms1_0 t) (hs1_0 t) (ms1_1 t) (hs1_1 t) (hcond1_0 t)
    (yblk V c t)) (ix3 (0 : Fin 1) rg b)).trans ?_
  rw [Tile.pay2_apply1, Tile.pay1_apply1, zero_add, yblk_eq]

/-- The second call's result array: the palette's counts. -/
def G1 (c : Dev nD) : Vec Ideal S1x256x16 .f32 := fun y => Cert.Spec.tileCount (tgt V c) (y 1) (y 2)

theorem G1_apply (c : Dev nD) (i : Fin 1) (rg : Fin 256) (b : Fin 16) :
    G1 V c (ix3 i rg b) = Cert.Spec.tileCount (tgt V c) rg b := rfl

/-- What the one write-back writes is G1. -/
theorem flushed1_eq (c : Dev nD) (t : Fin cfg1.N) (hf : (cfg1.win 1).flush t = true) :
    (dat1 V c).flushed 1 t = ((cfg1.win 1).blk t).view.read (Elt Ideal) (G1 V c) := by
  show (cfg1.win 1).cut (grid1.coords t) ((dat1 V c).after 1 t) = _
  rw [after1_1]
  funext y
  rw [View.read_apply]
  have hy0 : (y 0).val < 1 := (y 0).isLt
  have hy1 : (y 1).val < 256 := (y 1).isLt
  have hy2 : (y 2).val < 16 := (y 2).isLt
  have e : win1_1.xinj (grid1.coords t) y
      = ix3 (0 : Fin 1) (⟨(y 1).val, hy1⟩ : Fin 256) (⟨(y 2).val, hy2⟩ : Fin 16) := by
    funext a
    apply Fin.ext
    match a with
    | ⟨0, _⟩ => show (y 0).val = 0; omega
    | ⟨1, _⟩ => rfl
    | ⟨2, _⟩ => rfl
  refine (congrArg (outsAt1 V c t) e).trans ?_
  rw [outsAt1_eq V c t]
  unfold G1
  have e1 : ((((cfg1.win 1).blk t).view.emb y) 1) = (⟨(y 1).val, hy1⟩ : Fin 256) := by
    apply Fin.ext
    show win1_1.index t 1 * 256 + 1 * (y 1).val = (y 1).val
    rw [(index1_1 t).2.1]; omega
  have e2 : ((((cfg1.win 1).blk t).view.emb y) 2) = (⟨(y 2).val, hy2⟩ : Fin 16) := by
    apply Fin.ext
    show win1_1.index t 2 * 16 + 1 * (y 2).val = (y 2).val
    rw [(index1_1 t).2.2]; omega
  rw [e1, e2]
  rfl

/-- So the second call's result array ends at G1. -/
theorem arr1_eq (c : Dev nD) : (dat1 V c).arrAt 1 cfg1.N = G1 V c :=
  (dat1 V c).arrAt_eq_of_cover 1 (G1 V c) (flushed1_eq V c) fun i => by
    have hi0 : (i 0).val < 1 := (i 0).isLt
    have hi1 : (i 1).val < 256 := (i 1).isLt
    have hi2 : (i 2).val < 16 := (i 2).isLt
    refine ⟨t1_0, flush1_1 t1_0, ?_⟩
    show i ∈ ((View.whole main_v3).slice (win1_1.rect t1_0)).set
    rw [View.set_slice_whole, Rect.mem_set_unit]
    intro a
    match a with
    | ⟨0, _⟩ =>
      show win1_1.index t1_0 0 * 1 ≤ (i 0 : Nat) ∧ (i 0 : Nat) < win1_1.index t1_0 0 * 1 + 1
      rw [(index1_1 t1_0).1]; omega
    | ⟨1, _⟩ =>
      show win1_1.index t1_0 1 * 256 ≤ (i 1 : Nat) ∧ (i 1 : Nat) < win1_1.index t1_0 1 * 256 + 256
      rw [(index1_1 t1_0).2.1]; omega
    | ⟨2, _⟩ =>
      show win1_1.index t1_0 2 * 16 ≤ (i 2 : Nat) ∧ (i 2 : Nat) < win1_1.index t1_0 2 * 16 + 16
      rw [(index1_1 t1_0).2.2]; omega

end Cert.KernelIdeal.Acc

end
-- ==== Proof.Count.lean ====
/-
  Counting the points of a bin. A bin coordinate is a word in [0, 15], so the flat bin word (r * 16 + g) * 16 + b
  never wraps and determines the pair (r * 16 + g, b); and the rows of an array, taken block by block, are all its rows.
-/
import proofs.«169797_j12704513261608_1_alg».proof.Proof.Spec
import Mathlib.Algebra.BigOperators.Fin
import Mathlib.Algebra.BigOperators.Intervals

noncomputable section

open scoped BigOperators

namespace Cert.Spec

open Idealize.ShloMosaic Idealize.ShloMosaic.ValueIdx

/-- A word clamped (signed) into [0, 15] is at most 15 as a natural number. -/
theorem clamp_toNat_le (q : BitVec 32) : (IntOp.minsi 15#32 (IntOp.maxsi 0#32 q)).toNat ≤ 15 := by
  unfold IntOp.minsi IntOp.maxsi
  simp only [BitVec.slt, decide_eq_true_eq]
  have h15 : (15#32).toInt = 15 := by decide
  have h0 : (0#32).toInt = 0 := by decide
  rw [h15, h0]
  have hq := BitVec.toInt_eq_toNat_cond q
  have hlt := q.isLt
  split_ifs with h1 h2 h2
  · decide
  · decide
  · decide
  · split_ifs at hq <;> omega

/-- A bin coordinate is at most 15. -/
theorem chan_toNat_le (x : Ideal .f32) : (chan x).toNat ≤ 15 := clamp_toNat_le _

/-- The (red, green) word is r * 16 + g as a natural number: no wrap. -/
theorem rgWord_toNat (r g : Ideal .f32) :
    (rgWord r g).toNat = (chan r).toNat * 16 + (chan g).toNat := by
  have hr := chan_toNat_le r
  have hg := chan_toNat_le g
  unfold rgWord IntOp.addi IntOp.muli
  simp only [BitVec.toNat_add, BitVec.toNat_mul, BitVec.toNat_ofNat]
  omega

/-- The flat bin word is (r * 16 + g) * 16 + b as a natural number: no wrap. -/
theorem flatWord_toNat (r g b : Ideal .f32) :
    (flatWord r g b).toNat = ((chan r).toNat * 16 + (chan g).toNat) * 16 + (chan b).toNat := by
  have hr := chan_toNat_le r
  have hg := chan_toNat_le g
  have hb := chan_toNat_le b
  unfold flatWord rgWord IntOp.addi IntOp.muli
  simp only [BitVec.toNat_add, BitVec.toNat_mul, BitVec.toNat_ofNat]
  omega

/-- The flat bin word, read signed, is k exactly when the (red, green) word is k / 16 and the blue word is k % 16. -/
theorem flat_iff (r g b : Ideal .f32) (k : Fin 4096) :
    (flatWord r g b).toInt = (k.val : Int)
      ↔ rgWord r g = BitVec.ofNat 32 (k.val / 16) ∧ chan b = BitVec.ofNat 32 (k.val % 16) := by
  have hr := chan_toNat_le r
  have hg := chan_toNat_le g
  have hb := chan_toNat_le b
  have hk := k.isLt
  have hf := flatWord_toNat r g b
  have hrg := rgWord_toNat r g
  -- the flat word is below 4096, so its signed reading is its natural-number value
  have hI := BitVec.toInt_eq_toNat_cond (flatWord r g b)
  rw [if_pos (by omega)] at hI
  rw [hI]
  constructor
  · intro h
    constructor
    · apply BitVec.eq_of_toNat_eq
      rw [BitVec.toNat_ofNat]
      omega
    · apply BitVec.eq_of_toNat_eq
      rw [BitVec.toNat_ofNat]
      omega
  · rintro ⟨h1, h2⟩
    have h1' := congrArg BitVec.toNat h1
    have h2' := congrArg BitVec.toNat h2
    rw [BitVec.toNat_ofNat] at h1' h2'
    omega

/-- One block that is the whole array: its count at (k / 16, k % 16) is the histogram at k. -/
theorem hist_one_tile {T : Nat} (B : (⟨2, ![T, 3]⟩ : Shape).Idx → EReal) (k : Fin 4096) :
    tileCount B ⟨k.val / 16, by have := k.isLt; omega⟩ ⟨k.val % 16, Nat.mod_lt _ (by decide)⟩ = hist B (ix1 k) := by
  unfold tileCount hist
  refine Finset.sum_congr rfl fun e _ => ?_
  exact if_congr (flat_iff _ _ _ k).symm rfl rfl

/-- A row of a block that lies inside the array is the array's row. -/
theorem rowsAt_eq {n T : Nat} (X : (⟨2, ![n, 3]⟩ : Shape).Idx → EReal) (t : Nat) (p : Fin T) (c : Fin 3)
    (h : t * T + p.val < n) : rowsAt T X t (ix2 p c) = X (ix2 ⟨t * T + p.val, h⟩ c) := by
  unfold rowsAt
  exact dif_pos h

/-- A sum over n consecutive blocks of T terms is the sum over the first n * T terms. -/
theorem sum_range_blocks (F : Nat → EReal) (T : Nat) (n : Nat) :
    ∑ t ∈ Finset.range n, ∑ p ∈ Finset.range T, F (t * T + p) = ∑ e ∈ Finset.range (n * T), F e := by
  induction n with
  | zero => simp
  | succ n ih =>
    rw [Finset.sum_range_succ, ih, Nat.succ_mul, Finset.sum_range_add]

/-- An array of m blocks of T points: the blocks' counts at (k / 16, k % 16), summed, are the histogram at k. -/
theorem hist_blocks {n T : Nat} (m : Nat) (hn : m * T = n) (A : (⟨2, ![n, 3]⟩ : Shape).Idx → EReal) (k : Fin 4096) :
    ∑ t ∈ Finset.range m,
        tileCount (rowsAt T A t) ⟨k.val / 16, by have := k.isLt; omega⟩ ⟨k.val % 16, Nat.mod_lt _ (by decide)⟩
      = hist A (ix1 k) := by
  subst hn
  -- the indicator of bin k at row e, extended by zero past the array's end
  let F : Nat → EReal := fun e =>
    if h : e < m * T then
      (if (flatWord (A (ix2 ⟨e, h⟩ (0 : Fin 3))) (A (ix2 ⟨e, h⟩ (1 : Fin 3))) (A (ix2 ⟨e, h⟩ (2 : Fin 3)))).toInt
          = (k.val : Int) then (1 : EReal) else 0)
    else 0
  -- block t counts rows t * T, …, t * T + T - 1, all of which lie inside the array
  have hG : ∀ t ∈ Finset.range m,
      tileCount (rowsAt T A t) ⟨k.val / 16, by have := k.isLt; omega⟩ ⟨k.val % 16, Nat.mod_lt _ (by decide)⟩
        = ∑ p ∈ Finset.range T, F (t * T + p) := by
    intro t ht
    rw [← Fin.sum_univ_eq_sum_range (fun p => F (t * T + p)) T]
    unfold tileCount
    refine Finset.sum_congr rfl fun p _ => ?_
    have h : t * T + p.val < m * T := by
      have h1 : t + 1 ≤ m := Finset.mem_range.mp ht
      have h2 : (t + 1) * T ≤ m * T := Nat.mul_le_mul_right T h1
      have h3 := p.isLt
      rw [Nat.succ_mul] at h2
      omega
    simp only [F]
    rw [dif_pos h, rowsAt_eq A t p 0 h, rowsAt_eq A t p 1 h, rowsAt_eq A t p 2 h]
    exact if_congr (flat_iff _ _ _ k).symm rfl rfl
  rw [Finset.sum_congr rfl hG, sum_range_blocks F T m, ← Fin.sum_univ_eq_sum_range F (m * T)]
  unfold hist
  refine Finset.sum_congr rfl fun e _ => ?_
  simp only [F]
  rw [dif_pos e.isLt]

/-- An array of 2 * 1024 blocks of 4096 points: the blocks' counts at (k / 16, k % 16), summed, are the histogram at k. -/
theorem hist_tiles (A : (⟨2, ![8388608, 3]⟩ : Shape).Idx → EReal) (k : Fin 4096) :
    ∑ i : Fin 2, ∑ j ∈ Finset.range 1024,
        tileCount (rowsAt 4096 A (i.val * 1024 + j)) ⟨k.val / 16, by have := k.isLt; omega⟩ ⟨k.val % 16, Nat.mod_lt _ (by decide)⟩
      = hist A (ix1 k) := by
  rw [← hist_blocks (T := 4096) 2048 (by norm_num) A k]
  -- blocks 0, …, 2047 are blocks j and 1024 + j for j below 1024
  have h2 := Finset.sum_range_add (fun t => tileCount (rowsAt 4096 A t)
    ⟨k.val / 16, by have := k.isLt; omega⟩ ⟨k.val % 16, Nat.mod_lt _ (by decide)⟩) 1024 1024
  rw [Fin.sum_univ_two]
  simp only [Fin.val_zero, Fin.val_one, Nat.zero_mul, Nat.zero_add, Nat.one_mul]
  exact h2.symm

end Cert.Spec

end
-- ==== Proof.Fold.lean ====
/-
  Summing a stack of R count tables over the stack axis and flattening the [256, 16] table to 4096 bins: bin k of the
  result is the sum over the stack of the tables' entries at (k / 16, k % 16).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Fold

open Idealize.ShloMosaic Idealize.ShloMosaic.ValueIdx

/-- The host's sum over axis 0 of a [R, 256, 16] array from the zero, reshaped to [4096], read at bin k. -/
theorem fold_rows_apply {R : Nat} (G : FVec Ideal ⟨3, ![R, 256, 16]⟩ .f32)
    (hr : (⟨3, ![R, 256, 16]⟩ : Shape).ReducesTo [0] ⟨2, ![256, 16]⟩) (hS : 0 < (⟨0, ![]⟩ : Shape).numel)
    (hc : (⟨2, ![256, 16]⟩ : Shape).ShapeCasts ⟨1, ![4096]⟩) (k : Fin 4096) :
    shapeCast ⟨1, ![4096]⟩ (Host.reduceAdd G (constant ⟨0, ![]⟩ .f32 0x00000000#32) hr hS) hc (ix1 k)
      = ∑ i : Fin R, G (ix3 i (⟨k.val / 16, by have := k.isLt; omega⟩ : Fin 256) (⟨k.val % 16, Nat.mod_lt _ (by decide)⟩ : Fin 16)) := by
  have hk := k.isLt
  -- the flattening reads the table at (k / 16, k % 16): 16 * (k / 16) + k % 16 = k
  refine (shapeCast_apply _ hc (ix1 k)
    (ix2 (⟨k.val / 16, by omega⟩ : Fin 256) (⟨k.val % 16, Nat.mod_lt _ (by decide)⟩ : Fin 16)) (by
      rw [Shape.rowMajor_val_two, Shape.rowMajor_val_one]
      show (k.val / 16) * 16 + k.val % 16 = k.val
      omega)).trans ?_
  -- the sum over the stack axis, started from the zero word, is the plain sum over the stack
  have hR : (⟨3, ![R, 256, 16]⟩ : Shape).Reduces [0] ⟨2, ![256, 16]⟩ := ⟨hr.1, Nat.two_pos, hr.2⟩
  show Ideal.hostReduceAdd hr G (Ideal.ofBits .f32 0x00000000#32) _ = _
  rw [Ideal.hostReduceAdd_single hr hR, Ideal.ofBits_zero_f32, zero_add]
  -- the index with i inserted on the stack axis is (i, k / 16, k % 16), coordinate by coordinate
  refine Finset.sum_congr rfl fun i _ => congrArg G (funext fun a => Fin.ext ?_)
  match a with
  | ⟨0, _⟩ => rfl
  | ⟨1, _⟩ => rfl
  | ⟨2, _⟩ => rfl

end Cert.Fold

end
-- ==== Proof.KernelValue.lean ====
/-
  The kernel program's result, as mathematics. After the first call the host sums the two cores' count tables and
  flattens them: the source histogram. After the second it does the same with the palette's one table. The remaining
  host operations are the loss of the two histograms.
-/
import proofs.«169797_j12704513261608_1_alg».proof.Proof.Gen.KernelIdeal.Frame
import proofs.«169797_j12704513261608_1_alg».proof.Proof.Acc
import proofs.«169797_j12704513261608_1_alg».proof.Proof.Count
import proofs.«169797_j12704513261608_1_alg».proof.Proof.Fold
import proofs.«169797_j12704513261608_1_alg».proof.Proof.Spec
import Idealize.ShloMosaic.Lib.StableHlo.Run

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The source points and the palette, as launched. -/
abbrev srcArr (c : Dev nD) : Vec Ideal S8388608x3 .f32 := m ((c : Thread nD τ).loc main_arg0)
abbrev tgtArr (c : Dev nD) : Vec Ideal S4096x3 .f32 := m ((c : Thread nD τ).loc main_arg1)

/-- The first call finds the source points as launched. -/
theorem V0_arg0 (c : Dev nD) : Acc.src (V0 m ρ) c = srcArr m c := rfl

/-- The second call finds the palette as launched: neither the first call nor the host operations between write it. -/
theorem V2_arg1 (c : Dev nD) : Acc.tgt (V2 m ρ) c = tgtArr m c :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

/-- The source histogram as the program computes it: the two cores' tables summed and flattened. -/
theorem hist_src (c : Dev nD) :
    (shapeCast S4096 (Host.reduceAdd (F := Ideal) (Acc.G0 (V0 m ρ) c) (constant S_ .f32 0x00000000#32) reducesTo_S2x256x16_S256x16_d0 h_S_)
        shapeCasts_S256x16_S4096 : FVec Ideal S4096 .f32)
      = Cert.Spec.hist (srcArr m c) := by
  funext k
  obtain ⟨k, rfl⟩ : ∃ k' : Fin 4096, k = ix1 k' := ⟨k 0, eq_ix1 k⟩
  rw [Cert.Fold.fold_rows_apply (R := 2)]
  simp only [Acc.G0_apply]
  exact Cert.Spec.hist_tiles (srcArr m c) k

/-- The palette's histogram as the program computes it. -/
theorem hist_tgt (c : Dev nD) :
    (shapeCast S4096 (Host.reduceAdd (F := Ideal) (Acc.G1 (V2 m ρ) c) (constant S_ .f32 0x00000000#32) reducesTo_S1x256x16_S256x16_d0 h_S_)
        shapeCasts_S256x16_S4096 : FVec Ideal S4096 .f32)
      = Cert.Spec.hist (tgtArr m c) := by
  funext k
  obtain ⟨k, rfl⟩ : ∃ k' : Fin 4096, k = ix1 k' := ⟨k 0, eq_ix1 k⟩
  rw [Cert.Fold.fold_rows_apply (R := 1)]
  simp only [Acc.G1_apply, Finset.univ_unique, Finset.sum_singleton]
  rw [V2_arg1]
  exact Cert.Spec.hist_one_tile (tgtArr m c) k

/-- The result buffer after the last host stretch: the loss of the two histograms. -/
theorem result_eq (c : Dev nD) :
    W4 m ρ c (Proc.devRef .tc main_v17)
      = Cert.Spec.loss reducesTo_S4096_S_d0 h_S_ bcast_S_S4096 (Cert.Spec.hist (srcArr m c)) (Cert.Spec.hist (tgtArr m c)) := by
  rw [← hist_src m ρ c, ← hist_tgt m ρ c, ← Acc.arr0_eq (V0 m ρ) c, ← Acc.arr1_eq (V2 m ρ) c, ← W1_arr m ρ c 1, ← W3_arr m ρ c 1]
  have h2 : W3 m ρ c (Proc.devRef .tc main_v2)
      = (shapeCast S4096 (Host.reduceAdd (F := Ideal) (W1 m ρ c (Proc.devRef .tc main_v0)) (constant S_ .f32 0x00000000#32) reducesTo_S2x256x16_S256x16_d0 h_S_)
          shapeCasts_S256x16_S4096 : FVec Ideal S4096 .f32) := by
    rw [W3_of_ne m ρ c main_v2 (by decide)]
    show StableHlo.after hostOps1 (W1 m ρ c) (Proc.devRef .tc main_v2) = _
    after_results
    rfl
  show StableHlo.after hostOps2 (W3 m ρ c) (Proc.devRef .tc main_v17) = _
  after_results
  rw [h2]
  rfl

end Cert.KernelIdeal.KValue

end
-- ==== Proof.LibGather.lean ====
/-
  Gathering whole rows of a matrix, read at one element.

  The operand is an N × C matrix x, the start indices an n × 1 column idx, and the result an n × C
  matrix.  With the dimension numbers of a row lookup (operand axis 0 collapsed and start-indexed,
  operand axis 1 carried whole as the result's offset axis 1, slice sizes 1 × C, the index vector
  on axis 1 of the start indices), the result at (e, q) is x at (r, q), where r is the start index
  idx (e, 0) read as a signed integer and clamped into [0, N − 1]: a negative index reads row 0,
  an index past the end reads the last row.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx

theorem gather_rows_apply {α : Type} {N C n w : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (e : Fin n) (q : Fin C) (hN : 0 < N) :
    Host.gather d x idx (ix2 e q) = x (ix2 (⟨min (idx (ix2 e (0 : Fin 1))).toInt.toNat (N - 1), by omega⟩ : Fin N) q) := by
  unfold Host.gather
  congr 1
  funext a
  apply Fin.ext
  -- no operand axis is a batching axis
  have hb : ∀ a : Fin 2, a ∉ d.operandBatchingDims := fun a => by rw [hob]; exact List.not_mem_nil
  -- the result's only offset axis is axis 1, its only batch axis is axis 0
  have hoffm : ∀ z ∈ d.offsetDims, z = 1 := fun z hz => by rw [hoff] at hz; exact List.mem_singleton.1 hz
  have hbatm : ∀ z ∈ d.batchDims, z = 0 := fun z hz => by
    have hz' : z ∉ d.offsetDims := by simpa using (List.mem_filter.1 hz).2
    rw [hoff] at hz'
    match z with
    | ⟨0, _⟩ => rfl
    | ⟨1, _⟩ => exact absurd (List.mem_singleton.2 rfl) hz'
  match a with
  | ⟨0, _⟩ =>
    -- axis 0: collapsed and start-indexed; the operand coordinate is the clamped start index alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    have hsi : d.siIdx (ix2 e q) ⟨d.startIndexMap.idxOf (0 : Fin 2), List.idxOf_lt_length_iff.2 hm⟩ = ix2 e (0 : Fin 1) := by
      funext b
      apply Fin.ext
      match b with
      | ⟨0, _⟩ =>
        unfold GatherDims.siIdx
        rw [dif_neg (by rw [hivd]; simp)]
        unfold GatherDims.siCoord
        simp only [Fin.val_cast]
        rw [hbatm _ (List.getElem_mem _)]
        rfl
      | ⟨1, _⟩ =>
        unfold GatherDims.siIdx
        rw [dif_pos (by rw [hivd])]
        show List.idxOf (0 : Fin 2) d.startIndexMap = 0
        rw [hsim]; simp
    rw [hsi]
    show min (idx (ix2 e (0 : Fin 1))).toInt.toNat (N - d.sliceSizes 0) = _
    rw [hsl]
  | ⟨1, _⟩ =>
    -- axis 1: an offset axis carried whole; the operand coordinate is the result's column
    have hk : (1 : Fin 2) ∈ d.sKept := by rw [GatherDims.mem_sKept, hcoll]; exact ⟨by simp, hb 1⟩
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb 1), Nat.add_zero]
    unfold GatherDims.start
    rw [dif_neg hm, Nat.zero_add]
    unfold GatherDims.offCoord
    rw [dif_pos hk, hoffm _ (List.getElem_mem _)]
    rfl

end Cert.LibGather

end
-- ==== Proof.LibIndexed.lean ====
/-
  Indexed host operations read at one element, at the exact-real instance: the accumulating scatter (jnp's
  `segment_sum` / `.at[idx].add`) of rows and of scalars, and the gather of whole rows (`h[idx]`). Stated for any
  extents, over dimension numbers given by their printed lists.
-/
import proofs.«169797_j12704513261608_1_alg».proof.Proof.LibGather
import Idealize.ShloMosaic.PureOps.Ideal
import Idealize.ShloMosaic.Lib.ValueIdx
import Idealize.ShloMosaic.Lib.ValueIdxRank1
import Idealize.ShloMosaic.Lib.StableHlo.Predicate
import Idealize.ShloMosaic.Lib.Pipeline.Value

noncomputable section

open scoped BigOperators

namespace Cert.LibIndexed

open Idealize.ShloMosaic Idealize.ShloMosaic.ValueIdx

section Rows

variable {N C n w : Nat} (d : ScatterDims ⟨2, ![N, C]⟩ ⟨2, ![n, 1]⟩ ⟨2, ![n, C]⟩)
  (huw : d.updateWindowDims = [1]) (hiw : d.insertedWindowDims = [0]) (hsd : d.scatterDimsToOperandDims = [0])
  (hiv : d.indexVectorDim = 1) (idx : IVec ⟨2, ![n, 1]⟩ w) (e : Fin n) (q' : Fin C)

include huw hiw hsd hiv

/-- On the row axis the window of update (e, q') starts at the e-th start index, read signed. -/
theorem rows_start0 : d.start (ix2 e q') idx 0 = (idx (ix2 e (0 : Fin 1))).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- On the column axis it starts at 0. -/
theorem rows_start1 : d.start (ix2 e q') idx 1 = 0 := by
  obtain ⟨uw, iw, sd, iv, wf⟩ := d
  simp only at huw hiw hsd hiv
  subst huw hiw hsd hiv
  unfold ScatterDims.start
  exact dif_neg (show (1 : Fin 2) ∉ [(0 : Fin 2)] by decide)

/-- The window coordinate on the row axis (an inserted axis) is 0. -/
theorem rows_window0 : d.window (ix2 e q') 0 = 0 := by
  obtain ⟨uw, iw, sd, iv, wf⟩ := d
  simp only at huw hiw hsd hiv
  subst huw hiw hsd hiv
  unfold ScatterDims.window
  exact dif_neg (show (0 : Fin 2) ∉ (List.finRange 2).filter (· ∉ [(0 : Fin 2)]) by decide)

/-- The window coordinate on the column axis is the update's column. -/
theorem rows_window1 : d.window (ix2 e q') 1 = q'.val := by
  obtain ⟨uw, iw, sd, iv, wf⟩ := d
  simp only at huw hiw hsd hiv
  subst huw hiw hsd hiv
  unfold ScatterDims.window
  exact (dif_pos (show (1 : Fin 2) ∈ (List.finRange 2).filter (· ∉ [(0 : Fin 2)]) by decide)).trans rfl

/-- Update (e, q') lands at (r, q) exactly when its start index is r and its column is q. -/
theorem rows_resultIdx (r : Fin N) (q : Fin C) :
    d.resultIdx? (ix2 e q') idx = some (ix2 r q) ↔ (idx (ix2 e (0 : Fin 1))).toInt = (r.val : Int) ∧ q' = q := by
  have hs0 := rows_start0 d huw hiw hsd hiv idx e q'
  have hs1 := rows_start1 d huw hiw hsd hiv idx e q'
  have hw0 := rows_window0 d huw hiw hsd hiv e q'
  have hw1 := rows_window1 d huw hiw hsd hiv e q'
  unfold ScatterDims.resultIdx?
  constructor
  · intro h
    split at h
    · next hall =>
      have hf := Option.some.inj h
      have h0 : (d.start (ix2 e q') idx 0 + d.window (ix2 e q') 0).toNat = r.val := congrArg (fun f => (f 0).val) hf
      have h1 : (d.start (ix2 e q') idx 1 + d.window (ix2 e q') 1).toNat = q.val := congrArg (fun f => (f 1).val) hf
      have ha0 := (hall 0).1
      rw [hs0, hw0] at h0 ha0
      rw [hs1, hw1] at h1
      exact ⟨by omega, Fin.ext (by omega)⟩
    · exact absurd h (by simp)
  · rintro ⟨hS, rfl⟩
    have hall : ∀ a, 0 ≤ d.start (ix2 e q') idx a + d.window (ix2 e q') a
        ∧ d.start (ix2 e q') idx a + d.window (ix2 e q') a < (⟨2, ![N, C]⟩ : Shape).size a := by
      intro a
      match a with
      | ⟨0, _⟩ =>
        show 0 ≤ d.start (ix2 e q') idx 0 + d.window (ix2 e q') 0 ∧ d.start (ix2 e q') idx 0 + d.window (ix2 e q') 0 < (N : Int)
        rw [hs0, hw0, hS]; have := r.isLt; omega
      | ⟨1, _⟩ =>
        show 0 ≤ d.start (ix2 e q') idx 1 + d.window (ix2 e q') 1 ∧ d.start (ix2 e q') idx 1 + d.window (ix2 e q') 1 < (C : Int)
        rw [hs1, hw1]; have := q'.isLt; omega
    rw [dif_pos hall]
    congr 1
    funext a
    match a with
    | ⟨0, _⟩ =>
      apply Fin.ext
      show (d.start (ix2 e q') idx 0 + d.window (ix2 e q') 0).toNat = r.val
      rw [hs0, hw0, hS]; omega
    | ⟨1, _⟩ =>
      apply Fin.ext
      show (d.start (ix2 e q') idx 1 + d.window (ix2 e q') 1).toNat = q'.val
      rw [hs1, hw1]; omega

end Rows

/-- The accumulating scatter of ROWS at element (r, q): the operand's element plus the sum, over the update rows e whose
    start index (read signed, not clamped) is r, of update element (e, q). An update whose index is outside the operand
    contributes nothing. -/
theorem scatterAdd_rows_apply {N C n w : Nat}
    (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![n, 1]⟩ w) (upd : (⟨2, ![n, C]⟩ : Shape).Idx → EReal)
    (r : Fin N) (q : Fin C) :
    Ideal.hostScatterAdd d x idx upd (ix2 r q)
      = x (ix2 r q) + ∑ e : Fin n, if (idx (ix2 e (0 : Fin 1))).toInt = (r.val : Int) then upd (ix2 e q) else 0 := by
  unfold Ideal.hostScatterAdd
  congr 1
  -- the sum over the updates landing at (r, q), as a double sum over update rows and columns
  rw [Finset.sum_filter, sum_idx2]
  refine Finset.sum_congr rfl fun e _ => ?_
  by_cases hS : (idx (ix2 e (0 : Fin 1))).toInt = (r.val : Int)
  · -- row e lands on row r: of its columns, only column q lands at (r, q)
    rw [if_pos hS, Finset.sum_eq_single q]
    · rw [if_pos ((rows_resultIdx d huw hiw hsd hiv idx e q r q).2 ⟨hS, rfl⟩)]
    · intro q' _ hne
      rw [if_neg (fun h => hne ((rows_resultIdx d huw hiw hsd hiv idx e q' r q).1 h).2)]
    · intro h; exact absurd (Finset.mem_univ q) h
  · -- row e lands elsewhere, or nowhere
    rw [if_neg hS]
    refine Finset.sum_eq_zero fun q' _ => ?_
    rw [if_neg (fun h => hS ((rows_resultIdx d huw hiw hsd hiv idx e q' r q).1 h).1)]

section Vec

variable {N n w : Nat} (d : ScatterDims ⟨1, ![N]⟩ ⟨2, ![n, 1]⟩ ⟨1, ![n]⟩)
  (huw : d.updateWindowDims = []) (hiw : d.insertedWindowDims = [0]) (hsd : d.scatterDimsToOperandDims = [0])
  (hiv : d.indexVectorDim = 1) (idx : IVec ⟨2, ![n, 1]⟩ w) (e : Fin n)

include huw hiw hsd hiv

/-- The window of update e starts at the e-th start index, read signed. -/
theorem vec_start0 : d.start (ix1 e) idx 0 = (idx (ix2 e (0 : Fin 1))).toInt := by
  obtain ⟨uw, iw, sd, iv, wf⟩ := d
  simp only at huw hiw hsd hiv
  subst huw hiw hsd hiv
  unfold ScatterDims.start
  rw [dif_pos (List.mem_singleton.mpr rfl)]
  congr 2
  funext b
  match b with
  | ⟨0, _⟩ => rfl
  | ⟨1, _⟩ => rfl

/-- There is no window axis: the window coordinate is 0. -/
theorem vec_window0 : d.window (ix1 e) 0 = 0 := by
  obtain ⟨uw, iw, sd, iv, wf⟩ := d
  simp only at huw hiw hsd hiv
  subst huw hiw hsd hiv
  unfold ScatterDims.window
  exact dif_neg (show (0 : Fin 1) ∉ (List.finRange 1).filter (· ∉ [(0 : Fin 1)]) by decide)

/-- Update e lands at r exactly when its start index is r. -/
theorem vec_resultIdx (r : Fin N) :
    d.resultIdx? (ix1 e) idx = some (ix1 r) ↔ (idx (ix2 e (0 : Fin 1))).toInt = (r.val : Int) := by
  have hs0 := vec_start0 d huw hiw hsd hiv idx e
  have hw0 := vec_window0 d huw hiw hsd hiv e
  unfold ScatterDims.resultIdx?
  constructor
  · intro h
    split at h
    · next hall =>
      have hf := Option.some.inj h
      have h0 : (d.start (ix1 e) idx 0 + d.window (ix1 e) 0).toNat = r.val := congrArg (fun f => (f 0).val) hf
      have ha0 := (hall 0).1
      rw [hs0, hw0] at h0 ha0
      omega
    · exact absurd h (by simp)
  · intro hS
    have hall : ∀ a, 0 ≤ d.start (ix1 e) idx a + d.window (ix1 e) a
        ∧ d.start (ix1 e) idx a + d.window (ix1 e) a < (⟨1, ![N]⟩ : Shape).size a := by
      intro a
      match a with
      | ⟨0, _⟩ =>
        show 0 ≤ d.start (ix1 e) idx 0 + d.window (ix1 e) 0 ∧ d.start (ix1 e) idx 0 + d.window (ix1 e) 0 < (N : Int)
        rw [hs0, hw0, hS]; have := r.isLt; omega
    rw [dif_pos hall]
    congr 1
    funext a
    match a with
    | ⟨0, _⟩ =>
      apply Fin.ext
      show (d.start (ix1 e) idx 0 + d.window (ix1 e) 0).toNat = r.val
      rw [hs0, hw0, hS]; omega

end Vec

/-- The accumulating scatter of SCALARS at element r. -/
theorem scatterAdd_vec_apply {N n w : Nat}
    (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal)
    (r : Fin N) :
    Ideal.hostScatterAdd d x idx upd (ix1 r)
      = x (ix1 r) + ∑ e : Fin n, if (idx (ix2 e (0 : Fin 1))).toInt = (r.val : Int) then upd (ix1 e) else 0 := by
  unfold Ideal.hostScatterAdd
  congr 1
  -- the sum over the updates landing at r, re-indexed by the update's one coordinate
  rw [Finset.sum_filter, ← Equiv.sum_comp (idxEquiv1 (n := n)).symm]
  refine Finset.sum_congr rfl fun e _ => ?_
  show (if d.resultIdx? (ix1 e) idx = some (ix1 r) then upd (ix1 e) else 0) = _
  by_cases hS : (idx (ix2 e (0 : Fin 1))).toInt = (r.val : Int)
  · rw [if_pos hS, if_pos ((vec_resultIdx d huw hiw hsd hiv idx e r).2 hS)]
  · rw [if_neg hS, if_neg (fun h => hS ((vec_resultIdx d huw hiw hsd hiv idx e r).1 h))]

/-- The gather of whole ROWS at element (e, q): the operand at row idx[e] (read signed and clamped into [0, N-1]), column q. -/
theorem gather_rows_apply {α : Type} {N C n w : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![n, 1]⟩ w) (e : Fin n) (q : Fin C) (hN : 0 < N) :
    Host.gather d x idx (ix2 e q) = x (ix2 (⟨min (idx (ix2 e (0 : Fin 1))).toInt.toNat (N - 1), by omega⟩ : Fin N) q) :=
  Cert.LibGather.gather_rows_apply d hoff hcoll hob hsim hivd hss x idx e q hN

end Cert.LibIndexed

end
-- ==== Proof.ScatterHist.lean ====
/-
  An accumulating scatter of ones into a zero vector of 4096 bins, at the flat bin words of n points, adds to bin k one
  for each point whose word is k: it is the points' histogram. Stated for any number of points.
-/
import proofs.«169797_j12704513261608_1_alg».proof.Proof.Spec
import proofs.«169797_j12704513261608_1_alg».proof.Proof.LibIndexed

noncomputable section

open scoped BigOperators

namespace Cert.ScatterHist

open Idealize.ShloMosaic Idealize.ShloMosaic.ValueIdx

/-- An accumulating scatter of ones into zeros, at the flat bin words of n points, is the points' histogram. -/
theorem scatter_ones_eq_hist {n : Nat} (d : ScatterDims ⟨1, ![4096]⟩ ⟨2, ![n, 1]⟩ ⟨1, ![n]⟩)
    (huw : d.updateWindowDims = []) (hiw : d.insertedWindowDims = [0]) (hsd : d.scatterDimsToOperandDims = [0])
    (hiv : d.indexVectorDim = 1)
    (zeros : (⟨1, ![4096]⟩ : Shape).Idx → EReal) (hz : ∀ i, zeros i = 0)
    (ones : (⟨1, ![n]⟩ : Shape).Idx → EReal) (h1 : ∀ i, ones i = 1)
    (idx : IVec ⟨2, ![n, 1]⟩ 32) (X : (⟨2, ![n, 3]⟩ : Shape).Idx → EReal)
    (hidx : ∀ e : Fin n, idx (ix2 e (0 : Fin 1))
      = Cert.Spec.flatWord (X (ix2 e (0 : Fin 3))) (X (ix2 e (1 : Fin 3))) (X (ix2 e (2 : Fin 3)))) :
    Ideal.hostScatterAdd d zeros idx ones = Cert.Spec.hist X := by
  funext k
  obtain ⟨r, rfl⟩ : ∃ r : Fin 4096, k = ix1 r := ⟨k 0, eq_ix1 k⟩
  rw [Cert.LibIndexed.scatterAdd_vec_apply d huw hiw hsd hiv, hz, zero_add]
  unfold Cert.Spec.hist
  refine Finset.sum_congr rfl fun e _ => ?_
  rw [hidx e, h1]

end Cert.ScatterHist

end
-- ==== Proof.RefValue.lean ====
/-
  The reference program's result, read as mathematics: its scatter-add of ones at the flat bin words is the histogram
  that counts the points of each bin, for the source points and for the palette; the operations after the two
  scatters are the loss of the two histograms.
-/
import proofs.«169797_j12704513261608_1_alg».proof.Defs
import proofs.«169797_j12704513261608_1_alg».proof.Proof.Gen.ReferenceIdeal.Run
import proofs.«169797_j12704513261608_1_alg».proof.Proof.Gen.ReferenceIdeal.Read
import proofs.«169797_j12704513261608_1_alg».proof.Proof.Spec
import proofs.«169797_j12704513261608_1_alg».proof.Proof.LibIndexed
import proofs.«169797_j12704513261608_1_alg».proof.Proof.ScatterHist
import Idealize.ShloMosaic.Lib.IdealHost

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ### The source points -/

/-- The clipped word of the source array at any index is the bin coordinate of that channel. -/
theorem v3_chan (x0 : (⟨S8388608x3, .f32⟩ : BufTy).Contents (Elt Ideal)) (l : S8388608x3.Idx) :
    val_main_v3 (F := Ideal) x0 l = Cert.Spec.chan (x0 l) := by
  rw [val_main_v3_apply, val_main_call0_v4_apply, val_main_call0_v3_apply, val_main_c_0_apply,
    val_main_call0_v2_apply, val_main_call0_v1_apply, val_main_call0_v0_apply, val_main_c_apply,
    val_main_v2_apply, val_main_v1_apply, val_main_v0_apply, val_main_cst_apply]
  rfl

/-- Row e of the first column slice, flattened, is element (e, 0). -/
theorem idx0_red (e : Fin 8388608) : idx_main_v4 (idx_main_v5 (ix1 e)) = ix2 e (0 : Fin 3) := by
  funext a
  match a with
  | ⟨0, _⟩ => exact Fin.ext (Nat.div_one _)
  | ⟨1, _⟩ => exact Fin.ext rfl

/-- Row e of the second column slice, flattened, is element (e, 1). -/
theorem idx0_green (e : Fin 8388608) : idx_main_v8 (idx_main_v9 (ix1 e)) = ix2 e (1 : Fin 3) := by
  funext a
  match a with
  | ⟨0, _⟩ => exact Fin.ext (Nat.div_one _)
  | ⟨1, _⟩ => exact Fin.ext rfl

/-- Row e of the third column slice, flattened, is element (e, 2). -/
theorem idx0_blue (e : Fin 8388608) : idx_main_v13 (idx_main_v14 (ix1 e)) = ix2 e (2 : Fin 3) := by
  funext a
  match a with
  | ⟨0, _⟩ => exact Fin.ext (Nat.div_one _)
  | ⟨1, _⟩ => exact Fin.ext rfl

/-- The flat word the program computes for source row e is the flat bin word of that point. -/
theorem v15_flat (x0 : (⟨S8388608x3, .f32⟩ : BufTy).Contents (Elt Ideal)) (e : Fin 8388608) :
    val_main_v15 (F := Ideal) x0 (ix1 e)
      = Cert.Spec.flatWord (x0 (ix2 e (0 : Fin 3))) (x0 (ix2 e (1 : Fin 3))) (x0 (ix2 e (2 : Fin 3))) := by
  rw [val_main_v15_apply, val_main_v12_apply, val_main_v10_apply, val_main_v7_apply,
    val_main_v5_apply, val_main_v4_apply, val_main_v6_apply, val_main_c_1_apply,
    val_main_v9_apply, val_main_v8_apply, val_main_v11_apply, val_main_c_2_apply,
    val_main_v14_apply, val_main_v13_apply,
    idx0_red, idx0_green, idx0_blue, v3_chan, v3_chan, v3_chan]
  rfl

/-- Row e of the index column is row e of the flat words. -/
theorem idx0_col (e : Fin 8388608) : idx_main_v18 (ix2 e (0 : Fin 1)) = ix1 e := by
  funext a
  match a with
  | ⟨0, _⟩ => exact Fin.ext rfl

/-- The scatter's index word of source row e. -/
theorem v18_flat (x0 : (⟨S8388608x3, .f32⟩ : BufTy).Contents (Elt Ideal)) (e : Fin 8388608) :
    val_main_v18 (F := Ideal) x0 (ix2 e (0 : Fin 1))
      = Cert.Spec.flatWord (x0 (ix2 e (0 : Fin 3))) (x0 (ix2 e (1 : Fin 3))) (x0 (ix2 e (2 : Fin 3))) := by
  rw [val_main_v18_apply, idx0_col]
  exact v15_flat x0 e

/-- The scatter's operand is zero everywhere. -/
theorem v17_zero (i : S4096.Idx) : val_main_v17 (F := Ideal) i = 0 := by
  rw [val_main_v17_apply, val_main_cst_4_apply, Ideal.ofBits_def, Ideal.ofBits_zero_f32]

/-- The scatter's updates are one everywhere. -/
theorem v16_one (i : S8388608.Idx) : val_main_v16 (F := Ideal) i = 1 := by
  rw [val_main_v16_apply, val_main_cst_3_apply, Ideal.ofBits_def, Ideal.ofBits_one_f32]

/-- The scatter-add over the 8388608 source points is their histogram. -/
theorem hist0_eq (x0 : (⟨S8388608x3, .f32⟩ : BufTy).Contents (Elt Ideal)) :
    val_main_v19 (F := Ideal) x0 = Cert.Spec.hist x0 :=
  Cert.ScatterHist.scatter_ones_eq_hist (n := 8388608) scatter_S4096_S8388608x1_S8388608_n_0_0_1 rfl rfl rfl rfl
    (val_main_v17 (F := Ideal)) v17_zero (val_main_v16 (F := Ideal)) v16_one (val_main_v18 (F := Ideal) x0) x0
    (v18_flat x0)

/-! ### The palette points -/

/-- The clipped word of the palette array at any index is the bin coordinate of that channel. -/
theorem v27_chan (x1 : (⟨S4096x3, .f32⟩ : BufTy).Contents (Elt Ideal)) (l : S4096x3.Idx) :
    val_main_v27 (F := Ideal) x1 l = Cert.Spec.chan (x1 l) := by
  rw [val_main_v27_apply, val_main_call1_v4_apply, val_main_call1_v3_apply, val_main_c_9_apply,
    val_main_call1_v2_apply, val_main_call1_v1_apply, val_main_call1_v0_apply, val_main_c_8_apply,
    val_main_v26_apply, val_main_v25_apply, val_main_v24_apply, val_main_cst_7_apply]
  rfl

/-- Row e of the first column slice, flattened, is element (e, 0). -/
theorem idx1_red (e : Fin 4096) : idx_main_v28 (idx_main_v29 (ix1 e)) = ix2 e (0 : Fin 3) := by
  funext a
  match a with
  | ⟨0, _⟩ => exact Fin.ext (Nat.div_one _)
  | ⟨1, _⟩ => exact Fin.ext rfl

/-- Row e of the second column slice, flattened, is element (e, 1). -/
theorem idx1_green (e : Fin 4096) : idx_main_v32 (idx_main_v33 (ix1 e)) = ix2 e (1 : Fin 3) := by
  funext a
  match a with
  | ⟨0, _⟩ => exact Fin.ext (Nat.div_one _)
  | ⟨1, _⟩ => exact Fin.ext rfl

/-- Row e of the third column slice, flattened, is element (e, 2). -/
theorem idx1_blue (e : Fin 4096) : idx_main_v37 (idx_main_v38 (ix1 e)) = ix2 e (2 : Fin 3) := by
  funext a
  match a with
  | ⟨0, _⟩ => exact Fin.ext (Nat.div_one _)
  | ⟨1, _⟩ => exact Fin.ext rfl

/-- The flat word the program computes for palette row e is the flat bin word of that point. -/
theorem v39_flat (x1 : (⟨S4096x3, .f32⟩ : BufTy).Contents (Elt Ideal)) (e : Fin 4096) :
    val_main_v39 (F := Ideal) x1 (ix1 e)
      = Cert.Spec.flatWord (x1 (ix2 e (0 : Fin 3))) (x1 (ix2 e (1 : Fin 3))) (x1 (ix2 e (2 : Fin 3))) := by
  rw [val_main_v39_apply, val_main_v36_apply, val_main_v34_apply, val_main_v31_apply,
    val_main_v29_apply, val_main_v28_apply, val_main_v30_apply, val_main_c_10_apply,
    val_main_v33_apply, val_main_v32_apply, val_main_v35_apply, val_main_c_11_apply,
    val_main_v38_apply, val_main_v37_apply,
    idx1_red, idx1_green, idx1_blue, v27_chan, v27_chan, v27_chan]
  rfl

/-- Row e of the index column is row e of the flat words. -/
theorem idx1_col (e : Fin 4096) : idx_main_v42 (ix2 e (0 : Fin 1)) = ix1 e := by
  funext a
  match a with
  | ⟨0, _⟩ => exact Fin.ext rfl

/-- The scatter's index word of palette row e. -/
theorem v42_flat (x1 : (⟨S4096x3, .f32⟩ : BufTy).Contents (Elt Ideal)) (e : Fin 4096) :
    val_main_v42 (F := Ideal) x1 (ix2 e (0 : Fin 1))
      = Cert.Spec.flatWord (x1 (ix2 e (0 : Fin 3))) (x1 (ix2 e (1 : Fin 3))) (x1 (ix2 e (2 : Fin 3))) := by
  rw [val_main_v42_apply, idx1_col]
  exact v39_flat x1 e

/-- The scatter's operand is zero everywhere. -/
theorem v41_zero (i : S4096.Idx) : val_main_v41 (F := Ideal) i = 0 := by
  rw [val_main_v41_apply, val_main_cst_13_apply, Ideal.ofBits_def, Ideal.ofBits_zero_f32]

/-- The scatter's updates are one everywhere. -/
theorem v40_one (i : S4096.Idx) : val_main_v40 (F := Ideal) i = 1 := by
  rw [val_main_v40_apply, val_main_cst_12_apply, Ideal.ofBits_def, Ideal.ofBits_one_f32]

/-- The scatter-add over the 4096 palette points is their histogram. -/
theorem hist1_eq (x1 : (⟨S4096x3, .f32⟩ : BufTy).Contents (Elt Ideal)) :
    val_main_v43 (F := Ideal) x1 = Cert.Spec.hist x1 :=
  Cert.ScatterHist.scatter_ones_eq_hist (n := 4096) scatter_S4096_S4096x1_S4096_n_0_0_1 rfl rfl rfl rfl
    (val_main_v41 (F := Ideal)) v41_zero (val_main_v40 (F := Ideal)) v40_one (val_main_v42 (F := Ideal) x1) x1
    (v42_flat x1)

/-! ### The loss -/
/-- The operations after the two scatters are the loss of the two scattered vectors. -/
theorem tail_eq (x0 : (⟨S8388608x3, .f32⟩ : BufTy).Contents (Elt Ideal)) (x1 : (⟨S4096x3, .f32⟩ : BufTy).Contents (Elt Ideal)) :
    val_main_v51 (F := Ideal) x0 x1
      = Cert.Spec.loss reducesTo_S4096_S_d0 h_S_ bcast_S_S4096 (val_main_v19 (F := Ideal) x0) (val_main_v43 (F := Ideal) x1) :=
  rfl

/-- The reference's result is the loss of the two histograms. -/
theorem result_eq (x0 : (⟨S8388608x3, .f32⟩ : BufTy).Contents (Elt Ideal)) (x1 : (⟨S4096x3, .f32⟩ : BufTy).Contents (Elt Ideal)) :
    val_main_v51 (F := Ideal) x0 x1
      = Cert.Spec.loss reducesTo_S4096_S_d0 h_S_ bcast_S_S4096 (Cert.Spec.hist x0) (Cert.Spec.hist x1) :=
  (tail_eq x0 x1).trans
    (congrArg₂ (Cert.Spec.loss reducesTo_S4096_S_d0 h_S_ bcast_S_S4096) (hist0_eq x0) (hist1_eq x1))

end Cert.ReferenceIdeal.RefValue

end
-- ==== Proof.lean ====
/-
  A colour-histogram loss. Both programs send each point (three colour channels) to one of 4096 bins — channel x to
  the coordinate clamp(trunc(15 x), 0, 15), the point to bin (r * 16 + g) * 16 + b —, count the points of each bin for
  the 8388608 source points and for the 4096 palette points, divide each histogram by its total plus a small constant
  and average the absolute differences over the bins.
  The reference counts by an accumulating scatter of ones at the flat bin words. The kernel counts by a matrix product:
  for a tile of 4096 points, the one-hot matrix of the (r * 16 + g) words (4096 × 256) against the one-hot matrix of the
  b words (4096 × 16), contracted over the points, is the 256 × 16 table of the tile's counts; a core adds up the tables of
  its 1024 tiles, the host adds the two cores' tables and flattens [256, 16] to [4096]. Over the extended reals both are
  the same finite sums of zeros and ones: bin k = (k / 16) * 16 + k % 16 is determined by, and determines, the pair of
  words, because each coordinate is at most 15 and nothing wraps. The operations after the histograms are the same in
  both programs. No precondition is used beyond what the frames take.
-/
import proofs.«169797_j12704513261608_1_alg».proof.Defs
import proofs.«169797_j12704513261608_1_alg».proof.Proof.Gen.Kernel
import proofs.«169797_j12704513261608_1_alg».proof.Proof.Gen.Kernel.Frame
import proofs.«169797_j12704513261608_1_alg».proof.Proof.Gen.KernelIdeal
import proofs.«169797_j12704513261608_1_alg».proof.Proof.Gen.KernelIdeal.Frame
import proofs.«169797_j12704513261608_1_alg».proof.Proof.Gen.ReferenceIdeal
import proofs.«169797_j12704513261608_1_alg».proof.Proof.Gen.ReferenceIdeal.Run
import proofs.«169797_j12704513261608_1_alg».proof.Proof.Gen.ReferenceIdeal.Read
import proofs.«169797_j12704513261608_1_alg».proof.Proof.Gen.Pre_finite_inputs
import proofs.«169797_j12704513261608_1_alg».proof.Proof.KernelRun
import proofs.«169797_j12704513261608_1_alg».proof.Proof.KernelValue
import proofs.«169797_j12704513261608_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the loss of the histograms of the source points and of the palette. -/
theorem algebraic : Cert.algebraic_KernelIdeal_ReferenceIdeal := by
  intro m ρ m' ρ' _ hagree
  refine ⟨fun c => Cert.KernelIdeal.Gen.W4 m ρ c (Proc.devRef .tc Cert.KernelIdeal.main_v17),
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.result_eq, (hagree c).1, (hagree c).2]
  exact (Cert.KernelIdeal.KValue.result_eq m ρ c).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
